-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x128 .f32) (main_arg3 : FVec F S128 .f32) (main_arg4 : FVec F S64x128 .f32) (main_arg5 : FVec F S128x64 .f32) (main_arg6 : FVec F S64 .f32) (main_arg7 : FVec F S128x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S800000x128 : Shape := ⟨2, ![800000, 128]⟩
abbrev S1x64 : Shape := ⟨2, ![1, 64]⟩

abbrev nBuf : Space → Nat
  | .hbm => 58
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000x1, .f32⟩
  | .hbm, ⟨27, _⟩ => ⟨S_, .f32⟩
  | .hbm, ⟨28, _⟩ => ⟨S50000x1, .f32⟩
  | .hbm, ⟨29, _⟩ => ⟨S800000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x64, .f32⟩
  | .hbm, ⟨35, _⟩ => ⟨S50000x64, .f32⟩
  | .hbm, ⟨36, _⟩ => ⟨S1x128, .f32⟩
  | .hbm, ⟨37, _⟩ => ⟨S50000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S_, .f32⟩
  | .hbm, ⟨52, _⟩ => ⟨S50000x1, .f32⟩
  | .hbm, ⟨53, _⟩ => ⟨S50000x1, .f32⟩
  | .hbm, ⟨54, _⟩ => ⟨S50000x128, .f32⟩
  | .hbm, ⟨55, _⟩ => ⟨S50000x128, .f32⟩
  | .hbm, ⟨56, _⟩ => ⟨S1x64, .f32⟩
  | .hbm, ⟨57, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S5000x64, .f32⟩
  | .local _ .vmem, ⟨17, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v21) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000x1, .f32⟩
  | .hbm, ⟨27, _⟩ => ⟨S_, .f32⟩
  | .hbm, ⟨28, _⟩ => ⟨S50000x1, .f32⟩
  | .hbm, ⟨29, _⟩ => ⟨S800000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x64, .f32⟩
  | .hbm, ⟨35, _⟩ => ⟨S50000x64, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S800000x1, .f32⟩
  | .hbm, ⟨60, _⟩ => ⟨S_, .f32⟩
  | .hbm, ⟨61, _⟩ => ⟨S50000x1, .f32⟩
  | .hbm, ⟨62, _⟩ => ⟨S800000x1, .i32⟩
  | .hbm, ⟨63, _⟩ => ⟨S50000x1, .f32⟩
  | .hbm, ⟨64, _⟩ => ⟨S_, .f32⟩
  | .hbm, ⟨65, _⟩ => ⟨S50000x1, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Agg.lean ====
import proofs.«159100_j72060961292398_1_alg».proof.Proof.Gen.ReferenceIdeal.Read

/-!
  The neighbourhood mean of 128-channel node features, as one function of the features and the edge list.

  For features `h` of shape [50000, 128] and an edge list `ei` of shape [2, 800000] (row 0 the source nodes, row 1 the
  destination nodes), `mean128 h ei` gathers the source node's feature row for every edge (a negative source index
  counted from the end), adds the gathered rows into their destination nodes' rows starting from zero, and divides row
  `p` by the larger of one and the number of edges whose destination is `p`. The reference program computes its second
  layer's mean by exactly these operations applied to its first layer's output.
-/

noncomputable section

namespace Cert.Sage

open Cert.ReferenceIdeal Cert.ReferenceIdeal.Gen Cert.ReferenceIdeal.Read Idealize.ShloMosaic

variable {F : FTy → Type} [FloatOps F]

/-- The mean over in-neighbours of the 128-channel features `h`, along the edge list `ei`. -/
def mean128 (h : (⟨S50000x128, .f32⟩ : BufTy).Contents (Elt F)) (ei : (⟨S2x800000, .i32⟩ : BufTy).Contents (Elt F)) :
    (⟨S50000x128, .f32⟩ : BufTy).Contents (Elt F) :=
  Host.divf
    (Host.scatterAdd scatter_S50000x128_S800000x1_S800000x128_1_0_0_1 (val_main_v36 (F := F)) (val_main_v37 (F := F) ei)
      (Host.gather gather_S50000x128_S800000x1_S800000x128_1_0_n_n_0_1_1128 h (val_main_v34 (F := F) ei)))
    (val_main_v45 (F := F) ei)

/-- The reference's second-layer mean is `mean128` of its first layer's output. -/
theorem val_main_v46_eq_mean128 (x0 : (⟨S50000x64, .f32⟩ : BufTy).Contents (Elt F)) (x1 : (⟨S2x800000, .i32⟩ : BufTy).Contents (Elt F))
    (x2 : (⟨S64x128, .f32⟩ : BufTy).Contents (Elt F)) (x3 : (⟨S128, .f32⟩ : BufTy).Contents (Elt F))
    (x4 : (⟨S64x128, .f32⟩ : BufTy).Contents (Elt F)) :
    val_main_v46 (F := F) x0 x1 x2 x3 x4 = mean128 (val_main_v28 (F := F) x0 x1 x2 x3 x4) x1 := rfl

end Cert.Sage

end
-- ==== Proof.HostReads.lean ====
import proofs.«159100_j72060961292398_1_alg».proof.Proof.Gen.KernelIdeal.Frame
import proofs.«159100_j72060961292398_1_alg».proof.Proof.Agg
import Idealize.ShloMosaic.Lib.StableHlo.Run

/-!
  What the kernel's two dense regions find in their operand arrays, as functions of the launch memory.

  Before the first region the host has computed the 64-channel neighbourhood means and reshaped the first bias to a
  row; every other operand of the region is an argument array, untouched. Between the regions the host computes the
  128-channel neighbourhood means of the first region's output (with the edge list and the in-degree counts it
  already has) and reshapes the second bias; the first region's output itself and the second layer's weights are read
  as they are. Each of these host chains is, operation for operation, the chain the reference program applies, so each
  operand is stated as the reference's own stage of the same name applied to the launch contents.
-/

set_option maxRecDepth 16384

noncomputable section

namespace Cert.KernelIdeal.HostReads

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Entering the first region -/

/-- The first region's means operand: the reference's 64-channel mean stage of the node features and the edge list. -/
theorem V1_v21 (c : Dev nD) : V1 (F := Ideal) m ρ c main_v21
    = Cert.ReferenceIdeal.Read.val_main_v21 (F := Ideal) (m ((c : Thread nD τ).loc main_arg0)) (m ((c : Thread nD τ).loc main_arg1)) := by
  show StableHlo.after hostOps0 (W0 m ρ c) (Proc.devRef .tc main_v21) = _
  simp only [hostOps0]
  after_results_simp
  rfl

/-- The node features are read as launched. -/
theorem V1_arg0 (c : Dev nD) : V1 (F := Ideal) m ρ c main_arg0 = m ((c : Thread nD τ).loc main_arg0) := by
  show StableHlo.after hostOps0 (W0 m ρ c) (Proc.devRef .tc main_arg0) = _
  simp only [hostOps0]
  after_results_simp

/-- The first layer's left weights are read as launched. -/
theorem V1_arg2 (c : Dev nD) : V1 (F := Ideal) m ρ c main_arg2 = m ((c : Thread nD τ).loc main_arg2) := by
  show StableHlo.after hostOps0 (W0 m ρ c) (Proc.devRef .tc main_arg2) = _
  simp only [hostOps0]
  after_results_simp

/-- The first layer's right weights are read as launched. -/
theorem V1_arg4 (c : Dev nD) : V1 (F := Ideal) m ρ c main_arg4 = m ((c : Thread nD τ).loc main_arg4) := by
  show StableHlo.after hostOps0 (W0 m ρ c) (Proc.devRef .tc main_arg4) = _
  simp only [hostOps0]
  after_results_simp

/-- The first bias enters as a row: the bias vector reshaped to [1, 128]. -/
theorem V1_v22 (c : Dev nD) : V1 (F := Ideal) m ρ c main_v22
    = shapeCast S1x128 (m ((c : Thread nD τ).loc main_arg3)) Facts₀.shapeCasts_S128_S1x128 := by
  show StableHlo.after hostOps0 (W0 m ρ c) (Proc.devRef .tc main_v22) = _
  simp only [hostOps0]
  after_results_simp
  rfl

/-! ## Between the regions -/

/-- The first region's output array, at the second region's entry, is what the first region's write-backs left. -/
theorem V2_v23 (c : Dev nD) : W2 (F := Ideal) m ρ c (Proc.devRef .tc main_v23) = (dat0 (V1 m ρ) c).arrAt 5 cfg0.N :=
  W2_arr m ρ c 5

/-- The host operations between the regions do not write the first region's output. -/
theorem V3_v23 (c : Dev nD) : V3 (F := Ideal) m ρ c main_v23 = W2 m ρ c (Proc.devRef .tc main_v23) := by
  show StableHlo.after hostOps1 (W2 m ρ c) (Proc.devRef .tc main_v23) = _
  simp only [hostOps1]
  after_results_simp

/-- The second region's means operand: the 128-channel neighbourhood mean of the first region's output along the
    launched edge list (the source indices, destination indices and in-degree counts are the ones computed before the
    first region, which the first region does not touch). -/
theorem V3_v37 (c : Dev nD) : V3 (F := Ideal) m ρ c main_v37
    = Cert.Sage.mean128 (F := Ideal) (W2 m ρ c (Proc.devRef .tc main_v23)) (m ((c : Thread nD τ).loc main_arg1)) := by
  show StableHlo.after hostOps1 (W2 m ρ c) (Proc.devRef .tc main_v37) = _
  simp only [hostOps1]
  after_results_simp
  rw [W2_of_ne m ρ c main_v1 (by decide), W2_of_ne m ρ c main_v3 (by decide), W2_of_ne m ρ c main_v17 (by decide)]
  simp only [W1, hostOps0]
  after_results_simp
  rfl

/-- The second layer's left weights are read as launched: neither host stretch nor the first region writes them. -/
theorem V3_arg5 (c : Dev nD) : V3 (F := Ideal) m ρ c main_arg5 = m ((c : Thread nD τ).loc main_arg5) := by
  show StableHlo.after hostOps1 (W2 m ρ c) (Proc.devRef .tc main_arg5) = _
  simp only [hostOps1]
  after_results_simp
  rw [W2_of_ne m ρ c main_arg5 (by decide)]
  simp only [W1, hostOps0]
  after_results_simp

/-- The second layer's right weights are read as launched. -/
theorem V3_arg7 (c : Dev nD) : V3 (F := Ideal) m ρ c main_arg7 = m ((c : Thread nD τ).loc main_arg7) := by
  show StableHlo.after hostOps1 (W2 m ρ c) (Proc.devRef .tc main_arg7) = _
  simp only [hostOps1]
  after_results_simp
  rw [W2_of_ne m ρ c main_arg7 (by decide)]
  simp only [W1, hostOps0]
  after_results_simp

/-- The second bias enters as a row: the bias vector reshaped to [1, 64]. -/
theorem V3_v38 (c : Dev nD) : V3 (F := Ideal) m ρ c main_v38
    = shapeCast S1x64 (m ((c : Thread nD τ).loc main_arg6)) Facts₀.shapeCasts_S64_S1x64 := by
  show StableHlo.after hostOps1 (W2 m ρ c) (Proc.devRef .tc main_v38) = _
  simp only [hostOps1]
  after_results_simp
  rw [W2_of_ne m ρ c main_arg6 (by decide)]
  simp only [W1, hostOps0]
  after_results_simp
  rfl

end Cert.KernelIdeal.HostReads

end
-- ==== Proof.Spec.lean ====
import Idealize.ShloMosaic.PureOps.Ideal.Laws
import Idealize.ShloMosaic.Lib.ValueIdx

/-!
  The dense part of one mean-aggregation graph layer, entry by entry, on the extended reals.

  For a node-feature matrix `x` of shape [M, K], the matrix `a` of neighbourhood means of the same shape, two weight
  matrices `wl`, `wr` of shape [K, N] and a bias row `b` of shape [1, N], the layer's output at node `p` and
  channel `q` is

      (Σ_k a(p, k) · wl(k, q)  +  Σ_k x(p, k) · wr(k, q))  +  b(0, q),

  and the first layer clamps that value from below at the float zero. Row `p` of the output depends on row `p` of
  `a` and of `x` only, which is why computing the output one block of rows at a time gives the same array.
-/

open scoped BigOperators

noncomputable section

namespace Cert.Sage

open Idealize.ShloMosaic Idealize.ShloMosaic.ValueIdx

/-- The layer's affine value at node `p` and channel `q`: the two inner products over the `K` input channels, summed,
    plus the bias of channel `q`. -/
def affineAt {M K N : Nat} (a x : (⟨2, ![M, K]⟩ : Shape).Idx → EReal) (wl wr : (⟨2, ![K, N]⟩ : Shape).Idx → EReal)
    (b : (⟨2, ![1, N]⟩ : Shape).Idx → EReal) (p : Fin M) (q : Fin N) : EReal :=
  ((∑ k : Fin K, a (ix2 p k) * wl (ix2 k q)) + ∑ k : Fin K, x (ix2 p k) * wr (ix2 k q)) + b (ix2 (0 : Fin 1) q)

/-- The affine layer as one array of shape [M, N]. -/
def affine {M K N : Nat} (a x : (⟨2, ![M, K]⟩ : Shape).Idx → EReal) (wl wr : (⟨2, ![K, N]⟩ : Shape).Idx → EReal)
    (b : (⟨2, ![1, N]⟩ : Shape).Idx → EReal) : (⟨2, ![M, N]⟩ : Shape).Idx → EReal :=
  fun i => affineAt a x wl wr b (i 0) (i 1)

/-- The float zero the first layer clamps at, kept as its bit pattern. -/
abbrev zeroLit : EReal := Ideal.ofBits .f32 0x00000000#32

/-- The first layer: the affine layer clamped from below at the float zero. -/
def reluAffine {M K N : Nat} (a x : (⟨2, ![M, K]⟩ : Shape).Idx → EReal) (wl wr : (⟨2, ![K, N]⟩ : Shape).Idx → EReal)
    (b : (⟨2, ![1, N]⟩ : Shape).Idx → EReal) : (⟨2, ![M, N]⟩ : Shape).Idx → EReal :=
  fun i => max (affineAt a x wl wr b (i 0) (i 1)) zeroLit

theorem affine_apply {M K N : Nat} (a x : (⟨2, ![M, K]⟩ : Shape).Idx → EReal) (wl wr : (⟨2, ![K, N]⟩ : Shape).Idx → EReal)
    (b : (⟨2, ![1, N]⟩ : Shape).Idx → EReal) (p : Fin M) (q : Fin N) :
    affine a x wl wr b (ix2 p q) = affineAt a x wl wr b p q := rfl

theorem reluAffine_apply {M K N : Nat} (a x : (⟨2, ![M, K]⟩ : Shape).Idx → EReal) (wl wr : (⟨2, ![K, N]⟩ : Shape).Idx → EReal)
    (b : (⟨2, ![1, N]⟩ : Shape).Idx → EReal) (p : Fin M) (q : Fin N) :
    reluAffine a x wl wr b (ix2 p q) = max (affineAt a x wl wr b p q) zeroLit := rfl

/-- The affine value with the bias added before the second inner product: the same extended real, since addition of
    extended reals is commutative and associative (no finiteness is needed). -/
theorem affineAt_bias_first {M K N : Nat} (a x : (⟨2, ![M, K]⟩ : Shape).Idx → EReal) (wl wr : (⟨2, ![K, N]⟩ : Shape).Idx → EReal)
    (b : (⟨2, ![1, N]⟩ : Shape).Idx → EReal) (p : Fin M) (q : Fin N) :
    ((∑ k : Fin K, a (ix2 p k) * wl (ix2 k q)) + b (ix2 (0 : Fin 1) q)) + ∑ k : Fin K, x (ix2 p k) * wr (ix2 k q)
      = affineAt a x wl wr b p q := by
  unfold affineAt
  exact add_right_comm _ _ _

end Cert.Sage

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.Region0Value.lean ====
import proofs.«159100_j72060961292398_1_alg».proof.Proof.Gen.KernelIdeal.Frame
import proofs.«159100_j72060961292398_1_alg».proof.Proof.Spec
import proofs.«159100_j72060961292398_1_alg».proof.Proof.LibPlainDot
import Idealize.ShloMosaic.Lib.Pipeline.Value
import Idealize.ShloMosaic.Lib.ValueLayout

/-!
  The first layer's dense part, block by block and then as one array, on the extended reals.

  The region walks ten grid points. At point `t` it holds rows `5000·t … 5000·t + 4999` of the neighbourhood means
  and of the node features, the two 64 × 128 weight matrices whole and the bias row whole, and writes rows
  `5000·t … 5000·t + 4999` of the output. On the extended reals the narrowing of the operands before each product is
  the identity and a product accumulated into zeros is a plain sum, so entry `(p, q)` of what point `t` writes is

      max ((Σ_k mean(5000·t + p, k) · wl(k, q) + Σ_k x(5000·t + p, k) · wr(k, q)) + b(0, q)) 0,

  which is entry `(5000·t + p, q)` of the clamped layer of the full arrays: a row of the output reads the same row of
  the means and of the features and nothing else of them. Row `r` of the output lies in the block of point
  `r / 5000`, so the ten blocks cover the array and the array ends as the clamped layer, entry by entry.
-/

set_option maxRecDepth 16384
noncomputable section
namespace Cert.KernelIdeal.Region0Value
open Cert.KernelIdeal Cert.KernelIdeal.Gen Idealize.ShloMosaic Idealize.ShloMosaic.TcCoe Idealize.SL.Sem
open Idealize.ShloMosaic.Pipeline (Dat)
open Idealize.ShloMosaic.ValueIdx

/-- A product of a 5000 × 64 block with a 64 × 128 matrix, accumulated into zeros, is at entry `(p, q)` the sum over the 64
    input channels. -/
theorem product0_apply (l : FVec Ideal S5000x64 .bf16) (r : FVec Ideal S64x128 .bf16) (p : Fin 5000) (q : Fin 128) :
    matmul dot_S5000x64_S64x128_S5000x128_1_0_0_1_n_n none l r (constant (F := Ideal) S5000x128 .f32 0x00000000#32) (ix2 p q)
      = ∑ k : Fin 64, l (ix2 p k) * r (ix2 k q) :=
  Cert.Lib.PlainDot.matmul_zero_apply (M := 5000) (K := 64) (N := 128) dot_S5000x64_S64x128_S5000x128_1_0_0_1_n_n
    rfl rfl rfl rfl rfl rfl none l r p q

/-- The body's arithmetic at entry `(p, q)` of a block: the two inner products, summed, plus the bias of channel `q`,
    clamped from below at the float zero. -/
theorem payload0 (v0 v3 : Vec Ideal S5000x64 .f32) (v5 v7 : Vec Ideal S64x128 .f32) (v12 : Vec Ideal S1x128 .f32)
    (p : Fin 5000) (q : Fin 128) :
    k0_pay1 v0 v3 v5 v7 v12 (ix2 p q) = max (Cert.Sage.affineAt v0 v3 v5 v7 v12 p q) Cert.Sage.zeroLit := by
  unfold k0_pay1
  rw [maximumf_apply, addf_apply, addf_apply, broadcast_apply, shapeCast_self, shapeCast_self,
    product0_apply, product0_apply, broadcastTo_1b_ab_apply]
  rfl

/-- The origin of a rank-2 block, as the constant-zero offset. -/
theorem origin_zero : (![0, 0] : Fin 2 → Nat) = fun _ => 0 := funext fun a => by fin_cases a <;> rfl

/-- The block index of every window at every one of the ten points: the means, the features and the output move one
    block of rows per point, the weights and the bias stay at the origin. -/
theorem block_indices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One entry of a block's payload, when rows `p` of the two row blocks are rows `P` of the two full matrices and the
    weight and bias blocks are the full arrays: the clamped layer value at row `P`. -/
theorem entry0 (a x : S50000x64.Idx → EReal) (wl wr : S64x128.Idx → EReal) (b : S1x128.Idx → EReal)
    (v0 v3 : Vec Ideal S5000x64 .f32) (v5 v7 : Vec Ideal S64x128 .f32) (v12 : Vec Ideal S1x128 .f32)
    (p : Fin 5000) (q : Fin 128) (P : Fin 50000)
    (h0 : ∀ k : Fin 64, v0 (ix2 p k) = a (ix2 P k)) (h1 : ∀ k : Fin 64, v3 (ix2 p k) = x (ix2 P k))
    (h2 : v5 = wl) (h4 : v7 = wr) (h3 : v12 = b) :
    k0_pay1 v0 v3 v5 v7 v12 (ix2 p q) = Cert.Sage.reluAffine (M := 50000) (K := 64) (N := 128) a x wl wr b (ix2 P q) := by
  subst h2 h4 h3
  rw [payload0, Cert.Sage.reluAffine_apply]
  unfold Cert.Sage.affineAt
  simp only [h0, h1]

/-- The same with the two indices given whole: the block index `j` and the array index `i` it lands on. -/
theorem entry0_at (a x : S50000x64.Idx → EReal) (wl wr : S64x128.Idx → EReal) (b : S1x128.Idx → EReal)
    (v0 v3 : Vec Ideal S5000x64 .f32) (v5 v7 : Vec Ideal S64x128 .f32) (v12 : Vec Ideal S1x128 .f32)
    (j : S5000x128.Idx) (i : S50000x128.Idx)
    (h0 : ∀ k : Fin 64, v0 (ix2 (j 0) k) = a (ix2 (i 0) k)) (h1 : ∀ k : Fin 64, v3 (ix2 (j 0) k) = x (ix2 (i 0) k))
    (h2 : v5 = wl) (h4 : v7 = wr) (h3 : v12 = b) (hq : (i 1).val = (j 1).val) :
    k0_pay1 v0 v3 v5 v7 v12 j = Cert.Sage.reluAffine (M := 50000) (K := 64) (N := 128) a x wl wr b i := by
  obtain ⟨p, q, rfl⟩ : ∃ (p : Fin 5000) (q : Fin 128), j = ix2 p q := ⟨j 0, j 1, eq_ix2 j⟩
  obtain ⟨P, Q, rfl⟩ : ∃ (P : Fin 50000) (Q : Fin 128), i = ix2 P Q := ⟨i 0, i 1, eq_ix2 i⟩
  have hQ : Q = q := Fin.ext hq
  subst hQ
  exact entry0 a x wl wr b v0 v3 v5 v7 v12 p Q P h0 h1 h2 h4 h3

/-- What point `t` writes back to the output array is block `t` of the clamped layer of the arrays the region finds. -/
theorem block_written0 (V : (c : Dev nD) → (b : Ref sig .tc) → Buf (Elt Ideal) ((c : Thread nD τ).loc b)) (c : Dev nD) (t : Fin cfg0.N) :
    (dat0 (F := Ideal) V c).flushed 5 t = ((cfg0.win 5).blk t).view.read (Elt Ideal)
      (Cert.Sage.reluAffine (M := 50000) (K := 64) (N := 128) (V c main_v21) (V c main_arg0) (V c main_arg2) (V c main_arg4) (V c main_v22)) := by
  show (cfg0.win 5).cut (grid0.coords t) ((dat0 V c).after 5 t) = _
  rw [after0_5]
  unfold out0_5
  rw [View.canon_unit_zero origin_zero]
  simp only [View.ld_unit_zero (S := S5000x64) origin_zero, View.ld_unit_zero (S := S64x128) origin_zero, View.ld_unit_zero (S := S1x128) origin_zero]
  obtain ⟨e00, e01, e10, e11, e20, e21, e30, e31, e40, e41, e50, e51⟩ := block_indices0 t
  funext j
  show k0_pay1 (iblk0 V c 0 t) (iblk0 V c 1 t) (iblk0 V c 2 t) (iblk0 V c 4 t) (iblk0 V c 3 t) j
    = Cert.Sage.reluAffine (M := 50000) (K := 64) (N := 128) (V c main_v21) (V c main_arg0) (V c main_arg2) (V c main_arg4) (V c main_v22)
        (((cfg0.win 5).blk t).view.emb j)
  refine entry0_at (V c main_v21) (V c main_arg0) (V c main_arg2) (V c main_arg4) (V c main_v22)
    (iblk0 V c 0 t) (iblk0 V c 1 t) (iblk0 V c 2 t) (iblk0 V c 4 t) (iblk0 V c 3 t) j (((cfg0.win 5).blk t).view.emb j)
    (fun k => ?_) (fun k => ?_) ?_ ?_ ?_ ?_
  · -- row (j 0) of the block of means is row t·5000 + (j 0) of the means
    show V c main_v21 (((cfg0.win 0).blk t).view.emb (ix2 (j 0) k)) = _
    refine congrArg _ ?_
    funext a; apply Fin.ext
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 64 + 1 * k.val = k.val; omega
  · -- the same for the block of node features
    show V c main_arg0 (((cfg0.win 1).blk t).view.emb (ix2 (j 0) k)) = _
    refine congrArg _ ?_
    funext a; apply Fin.ext
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 64 + 1 * k.val = k.val; omega
  · -- the weight of the means is staged whole
    funext y
    show V c main_arg2 (((cfg0.win 2).blk t).view.emb y) = V c main_arg2 y
    refine congrArg _ ?_
    funext a; apply Fin.ext
    match a with
    | ⟨0, _⟩ => show win0_2.index t (0 : Fin 2) * 64 + 1 * (y 0).val = (y 0).val; omega
    | ⟨1, _⟩ => show win0_2.index t (1 : Fin 2) * 128 + 1 * (y 1).val = (y 1).val; omega
  · -- the weight of the node features is staged whole
    funext y
    show V c main_arg4 (((cfg0.win 4).blk t).view.emb y) = V c main_arg4 y
    refine congrArg _ ?_
    funext a; apply Fin.ext
    match a with
    | ⟨0, _⟩ => show win0_4.index t (0 : Fin 2) * 64 + 1 * (y 0).val = (y 0).val; omega
    | ⟨1, _⟩ => show win0_4.index t (1 : Fin 2) * 128 + 1 * (y 1).val = (y 1).val; omega
  · -- the bias row is staged whole
    funext y
    show V c main_v22 (((cfg0.win 3).blk t).view.emb y) = V c main_v22 y
    refine congrArg _ ?_
    funext a; apply Fin.ext
    match a with
    | ⟨0, _⟩ => show win0_3.index t (0 : Fin 2) * 1 + 1 * (y 0).val = (y 0).val; omega
    | ⟨1, _⟩ => show win0_3.index t (1 : Fin 2) * 128 + 1 * (y 1).val = (y 1).val; omega
  · -- the output block spans all 128 channels, so a channel keeps its number
    show win0_5.index t (1 : Fin 2) * 128 + 1 * (j 1).val = (j 1).val
    omega

/-- An index of the output array is in point `t`'s block iff each coordinate is in the block's range on its axis. -/
theorem mem_block0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- The ten blocks of 5000 rows tile the 50000 rows: row `r` lies in the block of point `r / 5000`. -/
theorem rows_covered0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have ht : (i 0).val / 5000 < cfg0.N := by show (i 0).val / 5000 < 10; omega
  obtain ⟨-, -, -, -, -, -, -, -, -, -, e50, e51⟩ := block_indices0 ⟨(i 0).val / 5000, ht⟩
  have e50' : win0_5.index ⟨(i 0).val / 5000, ht⟩ (0 : Fin 2) = (i 0).val / 5000 := e50
  refine ⟨⟨(i 0).val / 5000, ht⟩, flush0_5 _, ?_⟩
  rw [mem_block0]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    omega

/-- The output array after the region: the clamped layer of the arrays the region finds, entry by entry. -/
theorem final0 (V : (c : Dev nD) → (b : Ref sig .tc) → Buf (Elt Ideal) ((c : Thread nD τ).loc b)) (c : Dev nD) :
    (dat0 (F := Ideal) V c).arrAt 5 cfg0.N
      = Cert.Sage.reluAffine (M := 50000) (K := 64) (N := 128) (V c main_v21) (V c main_arg0) (V c main_arg2) (V c main_arg4) (V c main_v22) :=
  (dat0 (F := Ideal) V c).arrAt_eq_of_cover 5 _ (fun t _ => block_written0 V c t) rows_covered0

end Cert.KernelIdeal.Region0Value
end
-- ==== Proof.Region1Value.lean ====
import proofs.«159100_j72060961292398_1_alg».proof.Proof.Gen.KernelIdeal.Frame
import proofs.«159100_j72060961292398_1_alg».proof.Proof.Spec
import proofs.«159100_j72060961292398_1_alg».proof.Proof.LibPlainDot
import Idealize.ShloMosaic.Lib.Pipeline.Value
import Idealize.ShloMosaic.Lib.ValueLayout

/-!
  The second layer's dense part, block by block and then as one array, on the extended reals.

  Here the inputs have 128 channels and the output 64, and nothing is clamped. At grid point `t` the region holds rows
  `5000·t … 5000·t + 4999` of the neighbourhood means of the hidden features and of the hidden features themselves,
  the two 128 × 64 weight matrices whole and the bias row whole. On the extended reals entry `(p, q)` of what point
  `t` writes is

      (Σ_k mean(5000·t + p, k) · wl(k, q) + Σ_k h(5000·t + p, k) · wr(k, q)) + b(0, q),

  the affine layer of the full arrays at row `5000·t + p`. The ten blocks of 5000 rows cover the 50000 rows, so the
  output array ends as the affine layer, entry by entry.
-/

set_option maxRecDepth 16384
noncomputable section
namespace Cert.KernelIdeal.Region1Value
open Cert.KernelIdeal Cert.KernelIdeal.Gen Idealize.ShloMosaic Idealize.ShloMosaic.TcCoe Idealize.SL.Sem
open Idealize.ShloMosaic.Pipeline (Dat)
open Idealize.ShloMosaic.ValueIdx

/-- A product of a 5000 × 128 block with a 128 × 64 matrix, accumulated into zeros, is at entry `(p, q)` the sum over the
    128 hidden channels. -/
theorem product1_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) :=
  Cert.Lib.PlainDot.matmul_zero_apply (M := 5000) (K := 128) (N := 64) dot_S5000x128_S128x64_S5000x64_1_0_0_1_n_n
    rfl rfl rfl rfl rfl rfl none l r p q

/-- The body's arithmetic at entry `(p, q)` of a block: the two inner products, summed, plus the bias of channel `q`. -/
theorem payload1 (v0 v3 : Vec Ideal S5000x128 .f32) (v6 v8 : Vec Ideal S128x64 .f32) (v13 : Vec Ideal S1x64 .f32)
    (p : Fin 5000) (q : Fin 64) :
    k1_pay1 v0 v3 v6 v8 v13 (ix2 p q) = Cert.Sage.affineAt v0 v3 v6 v8 v13 p q := by
  unfold k1_pay1
  rw [addf_apply, addf_apply, shapeCast_self, shapeCast_self, shapeCast_self,
    product1_apply, product1_apply, broadcastTo_1b_ab_apply]
  rfl

/-- The origin of a rank-2 block, as the constant-zero offset. -/
theorem origin_zero : (![0, 0] : Fin 2 → Nat) = fun _ => 0 := funext fun a => by fin_cases a <;> rfl

/-- The block index of every window at every one of the ten points: the means, the hidden features and the output move
    one block of rows per point, the weights and the bias stay at the origin. -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One entry of a block's payload, when rows `p` of the two row blocks are rows `P` of the two full matrices and the
    weight and bias blocks are the full arrays: the affine layer's value at row `P`. -/
theorem entry1 (a h : S50000x128.Idx → EReal) (wl wr : S128x64.Idx → EReal) (b : S1x64.Idx → EReal)
    (v0 v3 : Vec Ideal S5000x128 .f32) (v6 v8 : Vec Ideal S128x64 .f32) (v13 : Vec Ideal S1x64 .f32)
    (p : Fin 5000) (q : Fin 64) (P : Fin 50000)
    (h0 : ∀ k : Fin 128, v0 (ix2 p k) = a (ix2 P k)) (h1 : ∀ k : Fin 128, v3 (ix2 p k) = h (ix2 P k))
    (h2 : v6 = wl) (h4 : v8 = wr) (h3 : v13 = b) :
    k1_pay1 v0 v3 v6 v8 v13 (ix2 p q) = Cert.Sage.affine (M := 50000) (K := 128) (N := 64) a h wl wr b (ix2 P q) := by
  subst h2 h4 h3
  rw [payload1, Cert.Sage.affine_apply]
  unfold Cert.Sage.affineAt
  simp only [h0, h1]

/-- The same with the two indices given whole: the block index `j` and the array index `i` it lands on. -/
theorem entry1_at (a h : S50000x128.Idx → EReal) (wl wr : S128x64.Idx → EReal) (b : S1x64.Idx → EReal)
    (v0 v3 : Vec Ideal S5000x128 .f32) (v6 v8 : Vec Ideal S128x64 .f32) (v13 : Vec Ideal S1x64 .f32)
    (j : S5000x64.Idx) (i : S50000x64.Idx)
    (h0 : ∀ k : Fin 128, v0 (ix2 (j 0) k) = a (ix2 (i 0) k)) (h1 : ∀ k : Fin 128, v3 (ix2 (j 0) k) = h (ix2 (i 0) k))
    (h2 : v6 = wl) (h4 : v8 = wr) (h3 : v13 = b) (hq : (i 1).val = (j 1).val) :
    k1_pay1 v0 v3 v6 v8 v13 j = Cert.Sage.affine (M := 50000) (K := 128) (N := 64) a h wl wr b i := by
  obtain ⟨p, q, rfl⟩ : ∃ (p : Fin 5000) (q : Fin 64), j = ix2 p q := ⟨j 0, j 1, eq_ix2 j⟩
  obtain ⟨P, Q, rfl⟩ : ∃ (P : Fin 50000) (Q : Fin 64), i = ix2 P Q := ⟨i 0, i 1, eq_ix2 i⟩
  have hQ : Q = q := Fin.ext hq
  subst hQ
  exact entry1 a h wl wr b v0 v3 v6 v8 v13 p Q P h0 h1 h2 h4 h3

/-- What point `t` writes back to the output array is block `t` of the affine layer of the arrays the region finds. -/
theorem block_written1 (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal)
      (Cert.Sage.affine (M := 50000) (K := 128) (N := 64) (V c main_v37) (V c main_v23) (V c main_arg5) (V c main_arg7) (V c main_v38)) := by
  show (cfg1.win 5).cut (grid1.coords t) ((dat1 V c).after 5 t) = _
  rw [after1_5]
  unfold out1_5
  rw [View.canon_unit_zero origin_zero]
  simp only [View.ld_unit_zero (S := S5000x128) origin_zero, View.ld_unit_zero (S := S128x64) origin_zero, View.ld_unit_zero (S := S1x64) origin_zero]
  obtain ⟨e00, e01, e10, e11, e20, e21, e30, e31, e40, e41, e50, e51⟩ := block_indices1 t
  funext j
  show k1_pay1 (iblk1 V c 0 t) (iblk1 V c 1 t) (iblk1 V c 2 t) (iblk1 V c 4 t) (iblk1 V c 3 t) j
    = Cert.Sage.affine (M := 50000) (K := 128) (N := 64) (V c main_v37) (V c main_v23) (V c main_arg5) (V c main_arg7) (V c main_v38)
        (((cfg1.win 5).blk t).view.emb j)
  refine entry1_at (V c main_v37) (V c main_v23) (V c main_arg5) (V c main_arg7) (V c main_v38)
    (iblk1 V c 0 t) (iblk1 V c 1 t) (iblk1 V c 2 t) (iblk1 V c 4 t) (iblk1 V c 3 t) j (((cfg1.win 5).blk t).view.emb j)
    (fun k => ?_) (fun k => ?_) ?_ ?_ ?_ ?_
  · -- row (j 0) of the block of means is row t·5000 + (j 0) of the means
    show V c main_v37 (((cfg1.win 0).blk t).view.emb (ix2 (j 0) k)) = _
    refine congrArg _ ?_
    funext a; apply Fin.ext
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · -- the same for the block of hidden features
    show V c main_v23 (((cfg1.win 1).blk t).view.emb (ix2 (j 0) k)) = _
    refine congrArg _ ?_
    funext a; apply Fin.ext
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · -- the weight of the means is staged whole
    funext y
    show V c main_arg5 (((cfg1.win 2).blk t).view.emb y) = V c main_arg5 y
    refine congrArg _ ?_
    funext a; apply Fin.ext
    match a with
    | ⟨0, _⟩ => show win1_2.index t (0 : Fin 2) * 128 + 1 * (y 0).val = (y 0).val; omega
    | ⟨1, _⟩ => show win1_2.index t (1 : Fin 2) * 64 + 1 * (y 1).val = (y 1).val; omega
  · -- the weight of the hidden features is staged whole
    funext y
    show V c main_arg7 (((cfg1.win 4).blk t).view.emb y) = V c main_arg7 y
    refine congrArg _ ?_
    funext a; apply Fin.ext
    match a with
    | ⟨0, _⟩ => show win1_4.index t (0 : Fin 2) * 128 + 1 * (y 0).val = (y 0).val; omega
    | ⟨1, _⟩ => show win1_4.index t (1 : Fin 2) * 64 + 1 * (y 1).val = (y 1).val; omega
  · -- the bias row is staged whole
    funext y
    show V c main_v38 (((cfg1.win 3).blk t).view.emb y) = V c main_v38 y
    refine congrArg _ ?_
    funext a; apply Fin.ext
    match a with
    | ⟨0, _⟩ => show win1_3.index t (0 : Fin 2) * 1 + 1 * (y 0).val = (y 0).val; omega
    | ⟨1, _⟩ => show win1_3.index t (1 : Fin 2) * 64 + 1 * (y 1).val = (y 1).val; omega
  · -- the output block spans all 64 channels, so a channel keeps its number
    show win1_5.index t (1 : Fin 2) * 64 + 1 * (j 1).val = (j 1).val
    omega

/-- An index of the output array is in point `t`'s block iff each coordinate is in the block's range on its axis. -/
theorem mem_block1 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v39).slice (win1_5.rect t)).set ↔ _
  rw [View.set_slice_whole, Rect.mem_set_unit]
  exact Iff.rfl

/-- The ten blocks of 5000 rows tile the 50000 rows: row `r` lies in the block of point `r / 5000`. -/
theorem rows_covered1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have ht : (i 0).val / 5000 < cfg1.N := by show (i 0).val / 5000 < 10; omega
  obtain ⟨-, -, -, -, -, -, -, -, -, -, e50, e51⟩ := block_indices1 ⟨(i 0).val / 5000, ht⟩
  have e50' : win1_5.index ⟨(i 0).val / 5000, ht⟩ (0 : Fin 2) = (i 0).val / 5000 := e50
  refine ⟨⟨(i 0).val / 5000, ht⟩, flush1_5 _, ?_⟩
  rw [mem_block1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    omega
  | ⟨1, _⟩ =>
    show win1_5.index ⟨(i 0).val / 5000, ht⟩ (1 : Fin 2) * 64 ≤ (i 1).val
      ∧ (i 1).val < win1_5.index ⟨(i 0).val / 5000, ht⟩ (1 : Fin 2) * 64 + 64
    omega

/-- The output array after the region: the affine layer of the arrays the region finds, entry by entry. -/
theorem final1 (V : (c : Dev nD) → (b : Ref sig .tc) → Buf (Elt Ideal) ((c : Thread nD τ).loc b)) (c : Dev nD) :
    (dat1 (F := Ideal) V c).arrAt 5 cfg1.N
      = Cert.Sage.affine (M := 50000) (K := 128) (N := 64) (V c main_v37) (V c main_v23) (V c main_arg5) (V c main_arg7) (V c main_v38) :=
  (dat1 (F := Ideal) V c).arrAt_eq_of_cover 5 _ (fun t _ => block_written1 V c t) rows_covered1

end Cert.KernelIdeal.Region1Value
end
-- ==== Proof.RefBridge.lean ====
import proofs.«159100_j72060961292398_1_alg».proof.Proof.Agg
import proofs.«159100_j72060961292398_1_alg».proof.Proof.Spec
import Idealize.ShloMosaic.Lib.ValueLayout

/-!
  The reference's two dense layers are the specification's layer, as equations between whole arrays over the
  extended reals.

  Read at node `p` and channel `q`, the reference's first layer is

      max ((Σ_k mean(p, k) · Wl(k, q)  +  b(q))  +  Σ_k x(p, k) · Wr(k, q))  0,

  where `mean` is the array of neighbourhood means of the input features. Each inner product is a plain sum over
  the input channels; the bias vector is laid out as a one-row matrix and that row is repeated down all the rows, so
  its entry at `(p, q)` is `b(q)` whatever `p` is; the clamp compares with the float zero. The second layer has the
  same form without the clamp, and its two left factors are the mean of the first layer's output and that output
  itself.

  The specification adds the bias after both inner products, the reference between them: the two orders give the
  same extended real because addition there is commutative and associative. The specification takes the bias as a
  one-row matrix; a vector of length `n` recast to shape [1, n] keeps its entries in order, so its entry `(0, q)` is
  the vector's entry `q`, which is the reference's bias term. The means and the first layer's output are never
  opened: they enter both sides as the same arrays.
-/

noncomputable section

namespace Cert.Sage

open Cert.ReferenceIdeal Cert.ReferenceIdeal.Gen Cert.ReferenceIdeal.Read Idealize.ShloMosaic Idealize.ShloMosaic.ValueIdx

/-! ### First layer: where the two inner products and the bias row read their operands

  At the output entry `(p, q)` the `k`-th term of an inner product multiplies the left factor's entry `(p, k)` by the
  weight's entry `(k, q)`, and the repeated bias row reads entry `q` of the bias vector. -/

theorem lidx_main_v22_ix2 (p : Fin 50000) (q : Fin 128) (k : Fin 64) : lidx_main_v22 (ix2 p q) k = ix2 p k :=
  funext fun a => Fin.ext (by match a with | ⟨0, _⟩ => rfl | ⟨1, _⟩ => rfl)

theorem ridx_main_v22_ix2 (p : Fin 50000) (q : Fin 128) (k : Fin 64) : ridx_main_v22 (ix2 p q) k = ix2 k q :=
  funext fun a => Fin.ext (by match a with | ⟨0, _⟩ => rfl | ⟨1, _⟩ => rfl)

theorem lidx_main_v26_ix2 (p : Fin 50000) (q : Fin 128) (k : Fin 64) : lidx_main_v26 (ix2 p q) k = ix2 p k :=
  funext fun a => Fin.ext (by match a with | ⟨0, _⟩ => rfl | ⟨1, _⟩ => rfl)

theorem ridx_main_v26_ix2 (p : Fin 50000) (q : Fin 128) (k : Fin 64) : ridx_main_v26 (ix2 p q) k = ix2 k q :=
  funext fun a => Fin.ext (by match a with | ⟨0, _⟩ => rfl | ⟨1, _⟩ => rfl)

/-- The bias, first made a one-row matrix and then repeated down the rows, reads the vector's entry `q` at `(p, q)`. -/
theorem idx_bias128_ix2 (p : Fin 50000) (q : Fin 128) : idx_main_v23 (idx_main_v24 (ix2 p q)) = ix1 q :=
  funext fun a => Fin.ext (by match a with | ⟨0, _⟩ => rfl)

/-- The reference's first layer is the clamped affine layer of the neighbourhood means and the input features.
    Entry by entry: both inner products are sums over the 64 input channels, the bias term is the bias vector's entry
    of the output channel, and moving the bias from between the two sums to after them does not change the value. -/
theorem layer1_eq (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal))
    (x4 : (⟨S64x128, .f32⟩ : BufTy).Contents (Elt Ideal)) (hb : S128.ShapeCasts S1x128) :
    reluAffine (M := 50000) (K := 64) (N := 128) (val_main_v21 (F := Ideal) x0 x1) x0 x2 x4 (shapeCast S1x128 x3 hb)
      = val_main_v28 (F := Ideal) x0 x1 x2 x3 x4 := by
  funext i
  obtain ⟨p, q, rfl⟩ : ∃ (p : Fin 50000) (q : Fin 128), i = ix2 p q := ⟨i 0, i 1, eq_ix2 i⟩
  rw [reluAffine_apply, val_main_v28_apply, val_main_v27_apply, val_main_v25_apply, val_main_v22_apply, val_main_v24_apply,
    val_main_v23_apply, val_main_v26_apply, val_main_call0_v0_apply, val_main_call0_cst_apply]
  simp only [lidx_main_v22_ix2, ridx_main_v22_ix2, lidx_main_v26_ix2, ridx_main_v26_ix2, idx_bias128_ix2,
    Ideal.maximumf_def, Ideal.addf_def, Ideal.ofBits_def]
  rw [← affineAt_bias_first, shapeCast_a_1a_apply]

/-! ### Second layer: the same reading, with 128 input channels and 64 output channels -/

theorem lidx_main_v47_ix2 (p : Fin 50000) (q : Fin 64) (k : Fin 128) : lidx_main_v47 (ix2 p q) k = ix2 p k :=
  funext fun a => Fin.ext (by match a with | ⟨0, _⟩ => rfl | ⟨1, _⟩ => rfl)

theorem ridx_main_v47_ix2 (p : Fin 50000) (q : Fin 64) (k : Fin 128) : ridx_main_v47 (ix2 p q) k = ix2 k q :=
  funext fun a => Fin.ext (by match a with | ⟨0, _⟩ => rfl | ⟨1, _⟩ => rfl)

theorem lidx_main_v51_ix2 (p : Fin 50000) (q : Fin 64) (k : Fin 128) : lidx_main_v51 (ix2 p q) k = ix2 p k :=
  funext fun a => Fin.ext (by match a with | ⟨0, _⟩ => rfl | ⟨1, _⟩ => rfl)

theorem ridx_main_v51_ix2 (p : Fin 50000) (q : Fin 64) (k : Fin 128) : ridx_main_v51 (ix2 p q) k = ix2 k q :=
  funext fun a => Fin.ext (by match a with | ⟨0, _⟩ => rfl | ⟨1, _⟩ => rfl)

/-- The second bias, made a one-row matrix and repeated down the rows, reads the vector's entry `q` at `(p, q)`. -/
theorem idx_bias64_ix2 (p : Fin 50000) (q : Fin 64) : idx_main_v48 (idx_main_v49 (ix2 p q)) = ix1 q :=
  funext fun a => Fin.ext (by match a with | ⟨0, _⟩ => rfl)

/-- The reference's second layer is the affine layer of the mean of the first layer's output and that output. The
    left factor of the first inner product is the reference's own second mean, which is the mean function applied to
    the first layer's output; everything else is as in the first layer, without the clamp. -/
theorem layer2_eq (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal))
    (x4 : (⟨S64x128, .f32⟩ : BufTy).Contents (Elt Ideal)) (x5 : (⟨S128x64, .f32⟩ : BufTy).Contents (Elt Ideal))
    (x6 : (⟨S64, .f32⟩ : BufTy).Contents (Elt Ideal)) (x7 : (⟨S128x64, .f32⟩ : BufTy).Contents (Elt Ideal))
    (hb : S64.ShapeCasts S1x64) :
    affine (M := 50000) (K := 128) (N := 64) (mean128 (val_main_v28 (F := Ideal) x0 x1 x2 x3 x4) x1)
        (val_main_v28 (F := Ideal) x0 x1 x2 x3 x4) x5 x7 (shapeCast S1x64 x6 hb)
      = val_main_v52 (F := Ideal) x0 x1 x2 x3 x4 x5 x6 x7 := by
  funext i
  obtain ⟨p, q, rfl⟩ : ∃ (p : Fin 50000) (q : Fin 64), i = ix2 p q := ⟨i 0, i 1, eq_ix2 i⟩
  rw [affine_apply, val_main_v52_apply, val_main_v50_apply, val_main_v47_apply, val_main_v49_apply, val_main_v48_apply,
    val_main_v51_apply, val_main_v46_eq_mean128]
  simp only [lidx_main_v47_ix2, ridx_main_v47_ix2, lidx_main_v51_ix2, ridx_main_v51_ix2, idx_bias64_ix2, Ideal.addf_def]
  rw [← affineAt_bias_first, shapeCast_a_1a_apply]

end Cert.Sage

end
-- ==== Proof.lean ====
/-
  The 2-layer mean-aggregation graph network (50000 nodes, 800000 edges, 64 → 128 → 64 channels), its Pallas kernel
  against the jnp reference, over the extended reals.

  Both programs form, by the same host operations, the mean of each node's in-neighbours' features (a gather of the
  source rows, a scatter-add into the destination rows, a division by the in-degree clamped below at one), once on the
  input features and once on the first layer's output. They differ only in the dense part of each layer,
  out = mean · Wl + b + x · Wr: the reference takes two whole matrix products and adds the bias between them; the kernel
  runs one region per layer over ten blocks of 5000 rows, takes the two products of a block, adds them and then the
  bias (and, in the first layer, clamps at zero). At the ideal instance a matrix product is a plain sum, so row by row
  the two are the same sums added in another order, and addition of extended reals is commutative and associative:
  no finiteness of the inputs is used.

  The kernel's side: its run over the four segments of @main names the result array (KernelIdealRun); each region's
  array after its ten write-backs is the (clamped) affine layer of the arrays the region was entered with
  (Region0Value, Region1Value); those arrays are the shared host chains applied to the launch contents (HostReads). The
  reference's side: its two layers are the same (clamped) affine layers (RefBridge). Both results are therefore the
  reference's last stage of the argument arrays.
-/
import proofs.«159100_j72060961292398_1_alg».proof.Defs
import proofs.«159100_j72060961292398_1_alg».proof.Proof.Gen.Kernel
import proofs.«159100_j72060961292398_1_alg».proof.Proof.Gen.Kernel.Skeleton
import proofs.«159100_j72060961292398_1_alg».proof.Proof.Gen.Kernel.Launch
import proofs.«159100_j72060961292398_1_alg».proof.Proof.Gen.Kernel.Points
import proofs.«159100_j72060961292398_1_alg».proof.Proof.Gen.Kernel.Frame
import proofs.«159100_j72060961292398_1_alg».proof.Proof.Gen.KernelIdeal
import proofs.«159100_j72060961292398_1_alg».proof.Proof.Gen.KernelIdeal.Skeleton
import proofs.«159100_j72060961292398_1_alg».proof.Proof.Gen.KernelIdeal.Launch
import proofs.«159100_j72060961292398_1_alg».proof.Proof.Gen.KernelIdeal.Points
import proofs.«159100_j72060961292398_1_alg».proof.Proof.Gen.KernelIdeal.Frame
import proofs.«159100_j72060961292398_1_alg».proof.Proof.Gen.ReferenceIdeal
import proofs.«159100_j72060961292398_1_alg».proof.Proof.Gen.ReferenceIdeal.Run
import proofs.«159100_j72060961292398_1_alg».proof.Proof.Gen.ReferenceIdeal.Read
import proofs.«159100_j72060961292398_1_alg».proof.Proof.Gen.Pre_finite_inputs
import proofs.«159100_j72060961292398_1_alg».proof.Proof.KernelIdealRun
import proofs.«159100_j72060961292398_1_alg».proof.Proof.HostReads
import proofs.«159100_j72060961292398_1_alg».proof.Proof.Region0Value
import proofs.«159100_j72060961292398_1_alg».proof.Proof.Region1Value
import proofs.«159100_j72060961292398_1_alg».proof.Proof.RefBridge
import Idealize.ShloMosaic.Adequacy
import Idealize.ShloMosaic.Init

set_option maxRecDepth 16384

noncomputable section

namespace Cert.Proof

open Idealize.ShloMosaic Idealize.ShloMosaic.TcCoe Idealize.SL.Sem

section KernelValue

open Cert.KernelIdeal Cert.KernelIdeal.Gen

variable (m : (ℓ : Loc nD τ sig) → Buf (Elt Ideal) ℓ) (ρ : Dev nD → PrngReg)

/-- The first region's output array, as the second region's host chain and the second region itself read it, is the
    reference's first-layer stage of the launch contents: its ten row blocks tile the clamped affine layer of the
    region's operands, the operands are the shared host chain's values, and the clamped affine layer of those is the
    reference's stage. -/
theorem hidden_value (c : Dev nD) :
    W2 (F := Ideal) m ρ c (Proc.devRef .tc main_v23)
      = Cert.ReferenceIdeal.Read.val_main_v28 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (Cert.KernelIdeal.HostReads.V2_v23 m ρ c).trans ?_
  refine (Cert.KernelIdeal.Region0Value.final0 (V1 m ρ) c).trans ?_
  rw [Cert.KernelIdeal.HostReads.V1_v21, Cert.KernelIdeal.HostReads.V1_arg0, Cert.KernelIdeal.HostReads.V1_arg2,
    Cert.KernelIdeal.HostReads.V1_arg4, Cert.KernelIdeal.HostReads.V1_v22]
  exact Cert.Sage.layer1_eq _ _ _ _ _ _

/-- The kernel's result array after the run is the reference's last stage of the launch contents: the second region's
    ten row blocks tile the affine layer of its operands, which are the mean of the first region's output, that output,
    the second layer's weights and its bias row. -/
theorem result_value (c : Dev nD) :
    W4 (F := Ideal) m ρ c (Proc.devRef .tc main_v39)
      = Cert.ReferenceIdeal.Read.val_main_v52 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (W4_arr m ρ c 5).trans ?_
  refine (Cert.KernelIdeal.Region1Value.final1 (V3 m ρ) c).trans ?_
  rw [Cert.KernelIdeal.HostReads.V3_v37, Cert.KernelIdeal.HostReads.V3_v23, Cert.KernelIdeal.HostReads.V3_arg5,
    Cert.KernelIdeal.HostReads.V3_arg7, Cert.KernelIdeal.HostReads.V3_v38, hidden_value m ρ c]
  exact Cert.Sage.layer2_eq _ _ _ _ _ _ _ _ _

end KernelValue

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the reference's last stage of the (agreeing) argument arrays in their result. -/
theorem algebraic : Cert.algebraic_KernelIdeal_ReferenceIdeal := by
  intro m ρ m' ρ' _ hagree
  refine ⟨fun c => Cert.ReferenceIdeal.Read.val_main_v52 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono (fun r h c => ⟨(h c).1.trans (result_value m ρ c), (h c).2⟩)
      (Cert.KernelIdeal.Run.run_result (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7⟩ := hagree c
    refine (h c).1.trans ((Cert.ReferenceIdeal.Read.val_main_v52_eq m' c).trans ?_)
    rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
